-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S128x128 : S_.BroadcastsInDim S128x128 (![] : Fin 0 → Fin S128x128.rank)
  reducesTo_S128x128_S_d0_1 : S128x128.ReducesTo [0, 1] S_
  h_S_ : 0 < S_.numel
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S1024x512 : S_.BroadcastsInDim S1024x512 (![] : Fin 0 → Fin S1024x512.rank)
  reducesTo_S1024x512_S_d0_1 : S1024x512.ReducesTo [0, 1] S_

variable [Facts]

def fn_part1 {F : FTy → Type} [FloatOps F] (main_arg0 : IVec S1024x512 32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_c_6 : IVec S_ 32 := constantI S_ 32 0#32
  let main_v19 : IVec S1024x512 32 := broadcastInDim S1024x512 ![] bcast_S_S1024x512 main_c_6
  let main_v20 : IVec S1024x512 1 := cmpi .sge main_arg0 main_v19
  let main_c_7 : IVec S_ 1 := constantI S_ 1 1#1
  let main_v21 : IVec S_ 1 := (fun x v => Host.reduce IntOp.andi x v reducesTo_S1024x512_S_d0_1 h_S_) main_v20 main_c_7
  let main_v22 : IVec S_ 1 := andi main_v18 main_v21
  main_v22

def fn {F : FTy → Type} [FloatOps F] (main_arg0 : IVec S1024x512 32) (main_arg1 : FVec F S128x128 .f32) (main_arg2 : FVec F S128 .f32) (main_arg3 : FVec F S128x64 .f32) (main_arg4 : FVec F S64 .f32) : IVec S_ 1 :=
  let main_v0 : FVec F S128x128 .f32 := Host.absf main_arg1
  let main_cst : FVec F S_ .f32 := constant S_ .f32 0x7F800000#32
  let main_v1 : FVec F S128x128 .f32 := broadcastInDim S128x128 ![] bcast_S_S128x128 main_cst
  let main_v2 : IVec S128x128 1 := cmpf .olt main_v0 main_v1
  let main_c : IVec S_ 1 := constantI S_ 1 1#1
  let main_v3 : IVec S_ 1 := (fun x v => Host.reduce IntOp.andi x v reducesTo_S128x128_S_d0_1 h_S_) main_v2 main_c
  let main_v4 : FVec F S128 .f32 := Host.absf main_arg2
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg0 main_v13 main_v16
-- ==== Kernel.lean ====
abbrev S1024x512 : Shape := ⟨2, ![1024, 512]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S_ : Shape := ⟨0, ![]⟩
abbrev S1x64 : Shape := ⟨2, ![1, 64]⟩
abbrev S256x128 : Shape := ⟨2, ![256, 128]⟩
abbrev S262144x2 : Shape := ⟨2, ![262144, 2]⟩
abbrev S262144x1 : Shape := ⟨2, ![262144, 1]⟩
abbrev S262144x128 : Shape := ⟨2, ![262144, 128]⟩
abbrev S8192x1 : Shape := ⟨2, ![8192, 1]⟩
abbrev S8192x128 : Shape := ⟨2, ![8192, 128]⟩
abbrev S8192x256 : Shape := ⟨2, ![8192, 256]⟩
abbrev S1024x512x64 : Shape := ⟨3, ![1024, 512, 64]⟩

abbrev nBuf : Space → Nat
  | .hbm => 33
  | .vmem => 7
  | .smem => 0
  | _ => 0

abbrev bufTy : (tb : Table) → Fin (tcTables nBuf tb) → BufTy
  | .hbm, ⟨0, _⟩ => ⟨S1024x512, .i32⟩
  | .hbm, ⟨1, _⟩ => ⟨S128x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S1x128, .f32⟩
  | .hbm, ⟨6, _⟩ => ⟨S128x128, .f32⟩
  | .hbm, ⟨7, _⟩ => ⟨S128x128, .f32⟩
  | .hbm, ⟨8, _⟩ => ⟨S_, .f32⟩
  | .hbm, ⟨9, _⟩ => ⟨S128x128, .f32⟩
  | .hbm, ⟨10, _⟩ => ⟨S128x128, .f32⟩
  | .hbm, ⟨11, _⟩ => ⟨S128x64, .f32⟩
  | .hbm, ⟨12, _⟩ => ⟨S1x64, .f32⟩
  | .hbm, ⟨13, _⟩ => ⟨S128x64, .f32⟩
  | .hbm, ⟨14, _⟩ => ⟨S128x64, .f32⟩
  | .hbm, ⟨15, _⟩ => ⟨S_, .f32⟩
  | .hbm, ⟨16, _⟩ => ⟨S128x64, .f32⟩
  | .hbm, ⟨17, _⟩ => ⟨S128x128, .f32⟩
  | .hbm, ⟨18, _⟩ => ⟨S128x128, .f32⟩
  | .hbm, ⟨19, _⟩ => ⟨S256x128, .f32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S1024x512, .i32⟩
  | .hbm, ⟨24, _⟩ => ⟨S1024x512, .i32⟩
  | .hbm, ⟨25, _⟩ => ⟨S_, .i32⟩
  | .hbm, ⟨26, _⟩ => ⟨S1024x512, .i32⟩
  | .hbm, ⟨27, _⟩ => ⟨S1024x512, .i32⟩
  | .hbm, ⟨28, _⟩ => ⟨S262144x2, .i32⟩
  | .hbm, ⟨29, _⟩ => ⟨S262144x1, .i32⟩
  | .hbm, ⟨30, _⟩ => ⟨S262144x1, .i32⟩
  | .hbm, ⟨31, _⟩ => ⟨S262144x128, .f32⟩
  | .hbm, ⟨32, _⟩ => ⟨S1024x512x64, .f32⟩
  | .local _ .vmem, ⟨0, _⟩ => ⟨S8192x1, .i32⟩
  | .local _ .vmem, ⟨1, _⟩ => ⟨S8192x1, .i32⟩
  | .local _ .vmem, ⟨2, _⟩ => ⟨S8192x1, .i32⟩
  | .local _ .vmem, ⟨3, _⟩ => ⟨S8192x1, .i32⟩
  | .local _ .vmem, ⟨4, _⟩ => ⟨S256x128, .f32⟩
  | .local _ .vmem, ⟨5, _⟩ => ⟨S8192x128, .f32⟩
  | .local _ .vmem, ⟨6, _⟩ => ⟨S8192x128, .f32⟩
  | _, _ => ⟨S1024x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_c_1 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S128_S1x128_1 : S128.BroadcastsInDim S1x128 (![1] : Fin 1 → Fin S1x128.rank)
  bcast_S1x128_S128x128_0_1 : S1x128.BroadcastsInDim S128x128 (![0, 1] : Fin 2 → Fin S128x128.rank)
  bcast_S_S128x128 : S_.BroadcastsInDim S128x128 (![] : Fin 0 → Fin S128x128.rank)
  bcast_S64_S1x64_1 : S64.BroadcastsInDim S1x64 (![1] : Fin 1 → Fin S1x64.rank)
  bcast_S1x64_S128x64_0_1 : S1x64.BroadcastsInDim S128x64 (![0, 1] : Fin 2 → Fin S128x64.rank)
  bcast_S_S128x64 : S_.BroadcastsInDim S128x64 (![] : Fin 0 → Fin S128x64.rank)
  concatenates_S128x64_S128x64_S128x128_d1 : Shape.Concatenates [S128x64, S128x64] S128x128 1
  concatenates_S128x128_S128x128_S256x128_d0 : Shape.Concatenates [S128x128, S128x128] S256x128 0
  bcast_S_S1024x512 : S_.BroadcastsInDim S1024x512 (![] : Fin 0 → Fin S1024x512.rank)
  shapeCasts_S1024x512_S262144x2 : S1024x512.ShapeCasts S262144x2
  slices_S262144x2_S262144x1_0_0 : S262144x2.Slices ![0, 0] S262144x1
  slices_S262144x2_S262144x1_0_1 : S262144x2.Slices ![0, 1] S262144x1
  iota_S8192x128_d1_w32 : S8192x128.Iotas .tc 32 [1]
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  broadcasts_S8192x1_S8192x128 : S8192x1.Broadcasts S8192x128
  natLt_1_32 : 1 < 32
  concatenates_S8192x128_S8192x128_S8192x256_d1 : Shape.Concatenates [S8192x128, S8192x128] S8192x256 1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S8192x128_S8192x128_0_0 : ∀ a, (![0, 0] : Fin 2 → Nat) a + S8192x128.size a ≤ S8192x128.size a
  h_S8192x128 : 0 < S8192x128.numel
  shapeCasts_S262144x128_S1024x512x64 : S262144x128.ShapeCasts S1024x512x64
  dot_S128x128_S128x64_S128x64_1_0_0_1_n_n_wf : DotDims.WF S128x128 S128x64 S128x64 [1] [0] [0] [1] [] []
  dot_S8192x256_S256x128_S8192x128_1_0_0_1_n_n_wf : DotDims.WF S8192x256 S256x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x1.size a ≤ S262144x1.size a
  hwx0_0 : ∀ i : grid0.Coords, EltTy.bits .i32 = 32 ∨ (Rect.block (s := S262144x1) S8192x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x1.size a ≤ S262144x1.size a
  hwx0_1 : ∀ i : grid0.Coords, EltTy.bits .i32 = 32 ∨ (Rect.block (s := S262144x1) S8192x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x128.size a ≤ S262144x128.size a
  hwx0_3 : ∀ i : grid0.Coords, EltTy.bits .f32 = 32 ∨ (Rect.block (s := S262144x128) S8192x128.size (cc0_transform_3 i) (hinb0_3 i)).WholeWords (EltTy.packing .f32)

variable [Facts₀]

def dot_S128x128_S128x64_S128x64_1_0_0_1_n_n : DotDims S128x128 S128x64 S128x64 where
  lhsContracting := [1]
  rhsContracting := [0]
  lhsNonContracting := [0]
  rhsNonContracting := [1]
  lhsBatch := []
  rhsBatch := []
  wf := dot_S128x128_S128x64_S128x64_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf

abbrev win0_0 : Pipeline.Window sig grid0 :=
  Pipeline.Window.ofSpec (Memref.whole main_v15) S8192x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S8192x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S8192x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x512 : Shape := ⟨2, ![1024, 512]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S1024x512x1 : Shape := ⟨3, ![1024, 512, 1]⟩
abbrev S1024x512x128 : Shape := ⟨3, ![1024, 512, 128]⟩
abbrev S1x1x128 : Shape := ⟨3, ![1, 1, 128]⟩
abbrev S1024x512x64 : Shape := ⟨3, ![1024, 512, 64]⟩
abbrev S1x1x64 : Shape := ⟨3, ![1, 1, 64]⟩

abbrev nBuf : Space → Nat
  | .hbm => 24
  | .vmem => 0
  | .smem => 0
  | _ => 0

abbrev bufTy : (tb : Table) → Fin (tcTables nBuf tb) → BufTy
  | .hbm, ⟨0, _⟩ => ⟨S1024x512, .i32⟩
  | .hbm, ⟨1, _⟩ => ⟨S128x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S_, .i32⟩
  | .hbm, ⟨6, _⟩ => ⟨S1024x512, .i32⟩
  | .hbm, ⟨7, _⟩ => ⟨S1024x512, .i1⟩
  | .hbm, ⟨8, _⟩ => ⟨S_, .i32⟩
  | .hbm, ⟨9, _⟩ => ⟨S1024x512, .i32⟩
  | .hbm, ⟨10, _⟩ => ⟨S1024x512, .i32⟩
  | .hbm, ⟨11, _⟩ => ⟨S1024x512, .i32⟩
  | .hbm, ⟨12, _⟩ => ⟨S1024x512x1, .i32⟩
  | .hbm, ⟨13, _⟩ => ⟨S1024x512x128, .f32⟩
  | .hbm, ⟨14, _⟩ => ⟨S1x1x128, .f32⟩
  | .hbm, ⟨15, _⟩ => ⟨S1024x512x128, .f32⟩
  | .hbm, ⟨16, _⟩ => ⟨S1024x512x128, .f32⟩
  | .hbm, ⟨17, _⟩ => ⟨S_, .f32⟩
  | .hbm, ⟨18, _⟩ => ⟨S1024x512x128, .f32⟩
  | .hbm, ⟨19, _⟩ => ⟨S1024x512x128, .f32⟩
  | .hbm, ⟨20, _⟩ => ⟨S1024x512x64, .f32⟩
  | .hbm, ⟨21, _⟩ => ⟨S1x1x64, .f32⟩
  | .hbm, ⟨22, _⟩ => ⟨S1024x512x64, .f32⟩
  | .hbm, ⟨23, _⟩ => ⟨S1024x512x64, .f32⟩
  | _, _ => ⟨S1024x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call0_cst : Ref sig .tc := ⟨.hbm, 17, rfl⟩
abbrev main_call0_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]

class Facts₀ : Prop where
  bcast_S_S1024x512 : S_.BroadcastsInDim S1024x512 (![] : Fin 0 → Fin S1024x512.rank)
  bcast_S1024x512_S1024x512x1_0_1 : S1024x512.BroadcastsInDim S1024x512x1 (![0, 1] : Fin 2 → Fin S1024x512x1.rank)
  bcast_S128_S1x1x128_2 : S128.BroadcastsInDim S1x1x128 (![2] : Fin 1 → Fin S1x1x128.rank)
  bcast_S1x1x128_S1024x512x128_0_1_2 : S1x1x128.BroadcastsInDim S1024x512x128 (![0, 1, 2] : Fin 3 → Fin S1024x512x128.rank)
  bcast_S_S1024x512x128 : S_.BroadcastsInDim S1024x512x128 (![] : Fin 0 → Fin S1024x512x128.rank)
  bcast_S64_S1x1x64_2 : S64.BroadcastsInDim S1x1x64 (![2] : Fin 1 → Fin S1x1x64.rank)
  bcast_S1x1x64_S1024x512x64_0_1_2 : S1x1x64.BroadcastsInDim S1024x512x64 (![0, 1, 2] : Fin 3 → Fin S1024x512x64.rank)
  gather_S128x128_S1024x512x1_S1024x512x128_2_0_n_n_0_2_1128_wf : GatherDims.WF S128x128 S1024x512x1 S1024x512x128 [2] [0] [] [0] [] 2 ![1, 128]
  dot_S1024x512x128_S128x64_S1024x512x64_2_0_01_1_n_n_wf : DotDims.WF S1024x512x128 S128x64 S1024x512x64 [2] [0] [0, 1] [1] [] []

variable [Facts₀]

def gather_S128x128_S1024x512x1_S1024x512x128_2_0_n_n_0_2_1128 : GatherDims S128x128 S1024x512x1 S1024x512x128 where
  offsetDims := [2]
  collapsedSliceDims := [0]
  operandBatchingDims := []
  startIndicesBatchingDims := []
  startIndexMap := [0]
  indexVectorDim := 2
  sliceSizes := ![1, 128]
  wf := gather_S128x128_S1024x512x1_S1024x512x128_2_0_n_n_0_2_1128_wf
def dot_S1024x512x128_S128x64_S1024x512x64_2_0_01_1_n_n : DotDims S1024x512x128 S128x64 S1024x512x64 where
  lhsContracting := [2]
  rhsContracting := [0]
  lhsNonContracting := [0, 1]
  rhsNonContracting := [1]
  lhsBatch := []
  rhsBatch := []
  wf := dot_S1024x512x128_S128x64_S1024x512x64_2_0_01_1_n_n_wf

class Facts : Prop extends Facts₀ where

variable [Facts]
-- ==== Proof.PreDecode.lean ====
/-
  The precondition read back: its last conjunct, "every id is nonnegative" (an and-reduction over all ids of the signed
  comparison id ≥ 0), gives the sign of each id. The finiteness conjuncts are not opened: the two programs agree on
  every extended real the float inputs may hold.
-/
import proofs.«416124_j67242007986617_3_alg».proof.Pre_finite_inputs
import Idealize.ShloMosaic.Lib.ReduceAll
import Idealize.ShloMosaic.Lib.Affine
import Idealize.ShloMosaic.Lib.ValueIdx

noncomputable section

namespace Cert.Lookup

open Idealize.ShloMosaic Idealize.ShloMosaic.ValueIdx

instance : Subsingleton Cert.Pre_finite_inputs.S_.Idx := ⟨fun _ _ => funext fun d => d.elim0⟩

/-- Under the precondition every id, read signed, is at least zero. -/
theorem ids_nonneg {F : FTy → Type} [FloatOps F] [Cert.Pre_finite_inputs.Facts]
    (x : IVec Cert.Pre_finite_inputs.S1024x512 32) (W1 : FVec F Cert.Pre_finite_inputs.S128x128 .f32)
    (b1 : FVec F Cert.Pre_finite_inputs.S128 .f32) (W2 : FVec F Cert.Pre_finite_inputs.S128x64 .f32)
    (b2 : FVec F Cert.Pre_finite_inputs.S64 .f32)
    (h : Cert.Pre_finite_inputs.fn (F := F) x W1 b1 W2 b2 = fun _ => 1#1) (i : Cert.Pre_finite_inputs.S1024x512.Idx) :
    0 ≤ (x i).toInt := by
  have h0 := congrFun h ix0
  dsimp only [Cert.Pre_finite_inputs.fn, Cert.Pre_finite_inputs.fn_part1] at h0
  have h1 := (IntOp.andi_eq_one.mp h0).2
  have h2 := Host.reduce_andi_all _ _ _ _ _ h1 i
  have h3 := IntOp.cmpi_sge.mp h2
  exact h3

end Cert.Lookup

end
-- ==== Proof.Spec.lean ====
/-
  What both programs compute, stated once and free of either program.

  An id `v` (a signed 32-bit word) selects row `row v = min (max v 0) 127` of a 128-row table, and the result at
  token `(b, s)` and output feature `o` is the table's entry

      tab k o = (∑ e, max (W1[k, e] + b1[e]) 0 * W2[e, o]) + b2[o]          at   k = row (x[b, s]).

  Also here: the word arithmetic by which each program arrives at `row` (a signed clip to [0, 127]; a start index read
  signed and clamped), a one-hot entry as an extended real, and the sum of a two-hot row against a column.
-/
import Idealize.ShloMosaic.PureOps.Ideal
import Idealize.ShloMosaic.PureOps.Ideal.Laws
import Idealize.ShloMosaic.Lib.ValueIdx
import Idealize.ShloMosaic.Lib.WordArith
import Idealize.ShloMosaic.Lib.Affine
import Idealize.ShloMosaic.Lib.KernelVsHost

noncomputable section

namespace Cert.Lookup

open Idealize.ShloMosaic Idealize.ShloMosaic.ValueIdx

abbrev Sx : Shape := ⟨2, ![1024, 512]⟩
abbrev Sw1 : Shape := ⟨2, ![128, 128]⟩
abbrev Sb1 : Shape := ⟨1, ![128]⟩
abbrev Sw2 : Shape := ⟨2, ![128, 64]⟩
abbrev Sb2 : Shape := ⟨1, ![64]⟩
abbrev Sout : Shape := ⟨3, ![1024, 512, 64]⟩

/-! ## The specification -/

/-- The table row an id selects: the id read signed and clamped into [0, 127]. -/
def row (v : BitVec 32) : Fin 128 := ⟨min v.toInt.toNat 127, by omega⟩

/-- Entry (k, o) of the table: the hidden layer at vocabulary id k, relu (W1[k, ·] + b1), through W2, plus b2. -/
def tab (W1 : Sw1.Idx → EReal) (b1 : Sb1.Idx → EReal) (W2 : Sw2.Idx → EReal) (b2 : Sb2.Idx → EReal)
    (k : Fin 128) (o : Fin 64) : EReal :=
  (∑ e : Fin 128, max (W1 (ix2 k e) + b1 (ix1 e)) 0 * W2 (ix2 e o)) + b2 (ix1 o)

/-- The result: token (b, s) reads the table row its id selects. -/
def G (x : Sx.Idx → BitVec 32) (W1 : Sw1.Idx → EReal) (b1 : Sb1.Idx → EReal) (W2 : Sw2.Idx → EReal) (b2 : Sb2.Idx → EReal) :
    Sout.Idx → EReal :=
  fun i => tab W1 b1 W2 b2 (row (x (ix2 (⟨(i 0).val, (i 0).isLt⟩ : Fin 1024) (⟨(i 1).val, (i 1).isLt⟩ : Fin 512))))
    (⟨(i 2).val, (i 2).isLt⟩ : Fin 64)

/-! ## How each program reaches `row` -/

/-- The signed clip min (127, max (0, v)) is a word whose natural value is `row v`. -/
theorem clip_toNat (v : BitVec 32) : (IntOp.minsi 127#32 (IntOp.maxsi 0#32 v)).toNat = (row v).val := by
  have h2 : 2 * (IntOp.maxsi 0#32 v).toNat < 2 ^ 32 := WordArith.two_mul_toNat_maxsi_zero_lt v
  rw [WordArith.toNat_minsi_of_lt 127#32 _ (by decide) (by omega), WordArith.toNat_maxsi_zero]
  show min 127 v.toInt.toNat = min v.toInt.toNat 127
  exact Nat.min_comm _ _

/-- A nonnegative id is not moved by the wrap "v + 128 where v < 0". -/
theorem wrap_of_nonneg (v : BitVec 32) (h : 0 ≤ v.toInt) :
    Scalar.select (IntOp.cmpi .slt v 0#32) (IntOp.addi v 128#32) v = v := by
  have hz : IntOp.cmpi .slt v 0#32 = 0#1 := eq_zero_of_ne_one fun h1 => by
    rw [IntOp.cmpi_slt, show (0#32 : BitVec 32).toInt = 0 from by decide] at h1
    omega
  rw [hz]
  exact select_zero _ _

/-! ## A one-hot entry, and a two-hot row against a column -/

/-- "a = k" as a bit, widened to a word and converted, is the extended real 1 or 0. -/
theorem onehot_entry (a k : BitVec 32) :
    (FloatOps.sitofp (F := Ideal) .f32 ((IntOp.cmpi .eq a k).setWidth 32) : EReal) = if a = k then 1 else 0 := by
  show ((((IntOp.cmpi .eq a k).setWidth 32).toInt : ℝ) : EReal) = _
  rw [toInt_setWidth_bit]
  by_cases h : a = k
  · rw [if_pos h, IntOp.cmpi_eq.mpr h]; simp
  · rw [if_neg h, eq_zero_of_ne_one fun h1 => h (IntOp.cmpi_eq.mp h1)]; simp

/-- Two words below 2 ^ 32 given by naturals are equal exactly when the naturals are. -/
theorem ofNat_eq_iff (p q : Nat) (hp : p < 2 ^ 32) (hq : q < 2 ^ 32) : BitVec.ofNat 32 p = BitVec.ofNat 32 q ↔ p = q := by
  constructor
  · intro h
    have := congrArg BitVec.toNat h
    rw [BitVec.toNat_ofNat, BitVec.toNat_ofNat, Nat.mod_eq_of_lt hp, Nat.mod_eq_of_lt hq] at this
    exact this
  · intro h; rw [h]

/-- A row of 256 entries that is one-hot at a in its first half and one-hot at 128 + b in its second, against a
    column: only those two entries of the column survive. No finiteness is needed: 0 * y = 0 on every extended real. -/
theorem sum_two_hot (u t : Fin 256 → EReal) (a b : Fin 128)
    (hlo : ∀ k : Fin 256, k.val < 128 → u k = if k.val = a.val then 1 else 0)
    (hhi : ∀ k : Fin 256, 128 ≤ k.val → u k = if k.val = 128 + b.val then 1 else 0) :
    ∑ k, u k * t k = t ⟨a.val, by omega⟩ + t ⟨128 + b.val, by omega⟩ := by
  have hne : (⟨a.val, by omega⟩ : Fin 256) ≠ ⟨128 + b.val, by omega⟩ := by
    intro h; have := congrArg Fin.val h; simp at this; omega
  rw [Finset.sum_eq_add (⟨a.val, by omega⟩ : Fin 256) ⟨128 + b.val, by omega⟩ hne]
  · rw [hlo ⟨a.val, by omega⟩ (by show a.val < 128; omega), hhi ⟨128 + b.val, by omega⟩ (by show 128 ≤ 128 + b.val; omega)]
    simp
  · intro k _ hk
    by_cases hk1 : k.val < 128
    · rw [hlo k hk1, if_neg (fun e => hk.1 (Fin.ext e)), zero_mul]
    · rw [hhi k (by omega), if_neg (fun e => hk.2 (Fin.ext e)), zero_mul]
  · intro h; exact absurd (Finset.mem_univ _) h
  · intro h; exact absurd (Finset.mem_univ _) h

end Cert.Lookup

end
-- ==== Proof.RefSide.lean ====
/-
  The reference's result is the specification `G`, wherever every id is nonnegative.

  The reference wraps a negative id (v + 128 where v < 0), gathers row "start index read signed, clamped into
  [0, 127]" of W1, adds b1, takes the maximum with 0, contracts with W2 over the hidden axis and adds b2. On a
  nonnegative id the wrap does nothing, and the clamped start index is `row`.
-/
import proofs.«416124_j67242007986617_3_alg».proof.Defs
import proofs.«416124_j67242007986617_3_alg».proof.Proof.Gen.ReferenceIdeal.Run
import proofs.«416124_j67242007986617_3_alg».proof.Proof.Gen.ReferenceIdeal.Read
import proofs.«416124_j67242007986617_3_alg».proof.Proof.Spec

noncomputable section

namespace Cert.Lookup.Ref

open Idealize.ShloMosaic Idealize.ShloMosaic.ValueIdx
open Cert.ReferenceIdeal Cert.ReferenceIdeal.Gen Cert.ReferenceIdeal.Read Cert.ReferenceIdeal.Facts₀

/-- The start-indices entry result index j reads: (j 0, j 1, 0). -/
abbrev startAt (j : S1024x512x128.Idx) : S1024x512x1.Idx := fun b => match b with
  | ⟨0, _⟩ => ⟨(j 0).val, (j 0).isLt⟩
  | ⟨1, _⟩ => ⟨(j 1).val, (j 1).isLt⟩
  | ⟨2, _⟩ => ⟨0, Nat.one_pos⟩

/-- The row gather at (b, s, e): W1 at row "the start index at (b, s, 0), read signed and clamped into [0, 127]",
    column e. -/
theorem gather_row {α : Type} (W1 : S128x128.Idx → α) (idx : IVec S1024x512x1 32) (j : S1024x512x128.Idx) :
    Host.gather gather_S128x128_S1024x512x1_S1024x512x128_2_0_n_n_0_2_1128 W1 idx j
      = W1 (ix2 (row (idx (startAt j))) (⟨(j 2).val, (j 2).isLt⟩ : Fin 128)) := by
  unfold Host.gather
  congr 1
  funext a
  refine Fin.ext ?_
  match a with
  | ⟨0, _⟩ =>
    show gather_S128x128_S1024x512x1_S1024x512x128_2_0_n_n_0_2_1128.start j idx 0
      + gather_S128x128_S1024x512x1_S1024x512x128_2_0_n_n_0_2_1128.batchCoord j 0
      + gather_S128x128_S1024x512x1_S1024x512x128_2_0_n_n_0_2_1128.offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S128x128_S1024x512x1_S1024x512x128_2_0_n_n_0_2_1128.startIndexMap from
      List.mem_singleton.mpr rfl)]
    have hsi : gather_S128x128_S1024x512x1_S1024x512x128_2_0_n_n_0_2_1128.siIdx j
        ⟨List.idxOf (0 : Fin 2) gather_S128x128_S1024x512x1_S1024x512x128_2_0_n_n_0_2_1128.startIndexMap,
          List.idxOf_lt_length_iff.2 (List.mem_singleton.mpr rfl)⟩ = startAt j := by
      funext b; refine Fin.ext ?_
      match b with
      | ⟨0, _⟩ => rfl
      | ⟨1, _⟩ => rfl
      | ⟨2, _⟩ => rfl
    rw [hsi]
    rfl
  | ⟨1, _⟩ =>
    show gather_S128x128_S1024x512x1_S1024x512x128_2_0_n_n_0_2_1128.start j idx 1
      + gather_S128x128_S1024x512x1_S1024x512x128_2_0_n_n_0_2_1128.batchCoord j 1
      + gather_S128x128_S1024x512x1_S1024x512x128_2_0_n_n_0_2_1128.offCoord j 1 = (j 2).val
    rw [GatherDims.batchCoord_eq_zero _ _ _ List.not_mem_nil]
    unfold GatherDims.start
    rw [dif_neg (show ¬(1 : Fin 2) ∈ gather_S128x128_S1024x512x1_S1024x512x128_2_0_n_n_0_2_1128.startIndexMap from by decide)]
    unfold GatherDims.offCoord
    rw [dif_pos (show (1 : Fin 2) ∈ gather_S128x128_S1024x512x1_S1024x512x128_2_0_n_n_0_2_1128.sKept from by decide)]
    simp only [Nat.zero_add, Nat.add_zero]
    rfl

/-- On nonnegative ids the wrap "v + 128 where v < 0" leaves the id array as it is. -/
theorem wrapped_eq (x : IVec S1024x512 32) (hx : ∀ i, 0 ≤ (x i).toInt) (i : S1024x512.Idx) :
    val_main_v4 (F := Ideal) x i = x i := by
  rw [val_main_v4_apply, val_main_v1_apply, val_main_v3_apply, val_main_v0_apply, val_main_c_apply, val_main_v2_apply,
    val_main_c_0_apply]
  exact wrap_of_nonneg _ (hx i)

/-- THE REFERENCE IS THE SPECIFICATION: at (b, s, o) the contraction over the hidden axis of
    max (W1[row, e] + b1[e]) 0 with W2[e, o], plus b2[o], at row = `row` of the id. -/
theorem ref_eq (x : IVec S1024x512 32) (W1 : FVec Ideal S128x128 .f32) (b1 : FVec Ideal S128 .f32)
    (W2 : FVec Ideal S128x64 .f32) (b2 : FVec Ideal S64 .f32) (hx : ∀ i, 0 ≤ (x i).toInt) :
    val_main_v14 (F := Ideal) x W1 b1 W2 b2 = G x W1 b1 W2 b2 := by
  funext i
  rw [val_main_v14_apply, val_main_v11_apply, val_main_v13_apply, val_main_v12_apply]
  unfold G tab
  show (∑ k : Fin 128, _) + _ = _
  congr 1
  · refine Finset.sum_congr rfl fun k _ => ?_
    rw [val_main_v10_apply, val_main_v9_apply, val_main_call0_v0_apply, val_main_call0_cst_apply, val_main_v8_apply,
      val_main_v7_apply]
    unfold val_main_v6
    rw [gather_row, val_main_v5_apply, wrapped_eq x hx]
    have e1 : idx_main_v5 (startAt (lidx_main_v11 i k))
        = ix2 (⟨(i 0).val, (i 0).isLt⟩ : Fin 1024) (⟨(i 1).val, (i 1).isLt⟩ : Fin 512) :=
      funext fun a => Fin.ext (by match a with | ⟨0, _⟩ => rfl | ⟨1, _⟩ => rfl)
    have e2 : idx_main_v7 (idx_main_v8 (lidx_main_v11 i k)) = ix1 k :=
      funext fun a => Fin.ext (by match a with | ⟨0, _⟩ => rfl)
    have e3 : ridx_main_v11 i k = ix2 k (⟨(i 2).val, (i 2).isLt⟩ : Fin 64) :=
      funext fun a => Fin.ext (by match a with | ⟨0, _⟩ => rfl | ⟨1, _⟩ => rfl)
    rw [e1, e2, e3]
    show max (_ + _) (Ideal.ofBits .f32 0x00000000#32) * _ = _
    rw [Ideal.ofBits_zero_f32]
  · exact congrArg b2 (funext fun a => Fin.ext (by match a with | ⟨0, _⟩ => rfl))

end Cert.Lookup.Ref

end
-- ==== Proof.Table.lean ====
/-
  The paired table the kernel's host prefix builds, and what it holds.

  The host computes the 128 × 64 table T = relu (W1 + b1) · W2 + b2 — entry (k, o) is `tab k o` of the specification —
  and lays two copies of it block-diagonally into a 256 × 128 array: rows 0‥127 hold [T | 0], rows 128‥255 hold [0 | T].
-/
import proofs.«416124_j67242007986617_3_alg».proof.Proof.Gen.KernelIdeal.Frame
import proofs.«416124_j67242007986617_3_alg».proof.Proof.Spec
import Idealize.ShloMosaic.Lib.StableHlo.Run
import Idealize.ShloMosaic.Lib.Pipeline.Value
import Idealize.ShloMosaic.PureOps.Ideal.Laws

noncomputable section

namespace Cert.Lookup.Ker

open Idealize.ShloMosaic Idealize.ShloMosaic.TcCoe Idealize.SL.Sem Idealize.ShloMosaic.StableHlo
open Idealize.ShloMosaic.ValueIdx
open Cert.KernelIdeal Cert.KernelIdeal.Gen

variable {F : FTy → Type} [FloatOps F]

/-! ## The host's terms -/

/-- The 128 × 64 table as the host computes it: relu (W1 + b1) · W2 + b2. -/
def hostTab (W1 : FVec F S128x128 .f32) (b1 : FVec F S128 .f32) (W2 : FVec F S128x64 .f32) (b2 : FVec F S64 .f32) :
    FVec F S128x64 .f32 :=
  addf (Host.dotGeneral dot_S128x128_S128x64_S128x64_1_0_0_1_n_n none
      (maximumf (addf W1 (broadcastInDim S128x128 ![0, 1] bcast_S1x128_S128x128_0_1 (broadcastInDim S1x128 ![1] bcast_S128_S1x128_1 b1)))
        (broadcastInDim S128x128 ![] bcast_S_S128x128 (constant S_ .f32 0x00000000#32))) W2)
    (broadcastInDim S128x64 ![0, 1] bcast_S1x64_S128x64_0_1 (broadcastInDim S1x64 ![1] bcast_S64_S1x64_1 b2))

/-- The 128 × 64 block of zeros beside it. -/
def zeroTab : FVec F S128x64 .f32 := broadcastInDim S128x64 ![] bcast_S_S128x64 (constant S_ .f32 0x00000000#32)

/-- The 256 × 128 paired table: [T | 0] over [0 | T]. -/
def pairTable (W1 : FVec F S128x128 .f32) (b1 : FVec F S128 .f32) (W2 : FVec F S128x64 .f32) (b2 : FVec F S64 .f32) :
    FVec F S256x128 .f32 :=
  concatenate S256x128 0
    [⟨S128x128, concatenate S128x128 1 [⟨S128x64, hostTab W1 b1 W2 b2⟩, ⟨S128x64, zeroTab⟩] concatenates_S128x64_S128x64_S128x128_d1⟩,
      ⟨S128x128, concatenate S128x128 1 [⟨S128x64, zeroTab⟩, ⟨S128x64, hostTab W1 b1 W2 b2⟩] concatenates_S128x64_S128x64_S128x128_d1⟩]
    concatenates_S128x128_S128x128_S256x128_d0

set_option maxHeartbeats 1000000 in
/-- The region finds the table window's array at the paired table of the float arguments. -/
theorem V_table (m : (ℓ : Loc nD τ sig) → Buf (Elt F) ℓ) (c : Dev nD) :
    (V m c main_v12 : S256x128.Idx → Elt F .f32)
      = pairTable (m ((c : Thread nD τ).loc main_arg1)) (m ((c : Thread nD τ).loc main_arg2))
          (m ((c : Thread nD τ).loc main_arg3)) (m ((c : Thread nD τ).loc main_arg4)) := by
  dsimp only [Gen.V, Gen.V0]
  simp only [hostOps0, hostOps0_1, hostOps0_2, List.flatten_cons, List.flatten_nil, List.append_nil, List.cons_append,
    List.nil_append]
  after_results
  rfl

/-! ## Broadcasts read at an index -/

/-- A vector [n] broadcast to one row [1, n] and then down m rows reads its entry b at (a, b). -/
theorem rowBcast_apply {α : Type} {m n : Nat} (hn : n ≠ 1)
    (h1 : (⟨1, ![n]⟩ : Shape).BroadcastsInDim ⟨2, ![1, n]⟩ (![1] : Fin 1 → Fin 2))
    (h2 : (⟨2, ![1, n]⟩ : Shape).BroadcastsInDim ⟨2, ![m, n]⟩ (![0, 1] : Fin 2 → Fin 2))
    (v : (⟨1, ![n]⟩ : Shape).Idx → α) (a : Fin m) (b : Fin n) :
    broadcastInDim ⟨2, ![m, n]⟩ ![0, 1] h2 (broadcastInDim ⟨2, ![1, n]⟩ ![1] h1 v) (ix2 a b) = v (ix1 b) := by
  rw [broadcastInDim_apply _ h2 _ (ix2 a b) (ix2 (⟨0, Nat.one_pos⟩ : Fin 1) b) (fun x => match x with
      | ⟨0, _⟩ => by show (0 : Nat) = if (1 : Nat) = 1 then 0 else _; rw [if_pos rfl]
      | ⟨1, _⟩ => by show b.val = if n = 1 then 0 else b.val; rw [if_neg hn]),
    broadcastInDim_apply _ h1 _ (ix2 (⟨0, Nat.one_pos⟩ : Fin 1) b) (ix1 b) (fun x => match x with
      | ⟨0, _⟩ => by show b.val = if n = 1 then 0 else b.val; rw [if_neg hn])]

/-- The zero word broadcast to any shape reads the extended real 0 everywhere. -/
theorem zeroBcast_apply {s : Shape} (h : S_.BroadcastsInDim s (![] : Fin 0 → Fin s.rank)) (i : s.Idx) :
    broadcastInDim s ![] h (constant (F := Ideal) S_ .f32 0x00000000#32) i = (0 : EReal) := by
  rw [broadcastInDim_apply _ h _ i ix0 (fun a => a.elim0)]
  exact Ideal.ofBits_zero_f32

/-! ## The host table is the specification's -/

theorem lhs_tab_0 (i : S128x64.Idx) (q : dot_S128x128_S128x64_S128x64_1_0_0_1_n_n.contr.Idx) :
    (dot_S128x128_S128x64_S128x64_1_0_0_1_n_n.lhsIdx i q 0).val = (i 0).val := by
  unfold DotDims.lhsIdx
  rw [dif_neg (show ¬(0 : Fin S128x128.rank) ∈ dot_S128x128_S128x64_S128x64_1_0_0_1_n_n.lhsBatch by decide),
    dif_pos (show (0 : Fin S128x128.rank) ∈ dot_S128x128_S128x64_S128x64_1_0_0_1_n_n.lhsNonContracting by decide)]
  rfl
theorem lhs_tab_1 (i : S128x64.Idx) (q : dot_S128x128_S128x64_S128x64_1_0_0_1_n_n.contr.Idx) :
    (dot_S128x128_S128x64_S128x64_1_0_0_1_n_n.lhsIdx i q 1).val = (q ⟨0, by decide⟩).val :=
  dot_S128x128_S128x64_S128x64_1_0_0_1_n_n.lhsIdx_val_of_single rfl i q
theorem rhs_tab_0 (i : S128x64.Idx) (q : dot_S128x128_S128x64_S128x64_1_0_0_1_n_n.contr.Idx) :
    (dot_S128x128_S128x64_S128x64_1_0_0_1_n_n.rhsIdx i q 0).val = (q ⟨0, by decide⟩).val :=
  dot_S128x128_S128x64_S128x64_1_0_0_1_n_n.rhsIdx_val_of_single rfl i q
theorem rhs_tab_1 (i : S128x64.Idx) (q : dot_S128x128_S128x64_S128x64_1_0_0_1_n_n.contr.Idx) :
    (dot_S128x128_S128x64_S128x64_1_0_0_1_n_n.rhsIdx i q 1).val = (i 1).val := by
  unfold DotDims.rhsIdx
  rw [dif_neg (show ¬(1 : Fin S128x64.rank) ∈ dot_S128x128_S128x64_S128x64_1_0_0_1_n_n.rhsBatch by decide),
    dif_pos (show (1 : Fin S128x64.rank) ∈ dot_S128x128_S128x64_S128x64_1_0_0_1_n_n.rhsNonContracting by decide)]
  rfl

/-- Entry (k, o) of the host's table is the specification's `tab k o`: the contraction over the hidden axis e of
    max (W1[k, e] + b1[e]) 0 with W2[e, o], plus b2[o]. -/
theorem hostTab_apply (W1 : FVec Ideal S128x128 .f32) (b1 : FVec Ideal S128 .f32) (W2 : FVec Ideal S128x64 .f32)
    (b2 : FVec Ideal S64 .f32) (k : Fin 128) (o : Fin 64) :
    hostTab (F := Ideal) W1 b1 W2 b2 (ix2 k o) = tab W1 b1 W2 b2 k o := by
  unfold hostTab tab
  show Host.dotGeneral dot_S128x128_S128x64_S128x64_1_0_0_1_n_n none _ W2 (ix2 k o) + _ = _
  congr 1
  · simp only [Host.dotGeneral]
    rw [Ideal.dotGeneral_apply, ← Equiv.sum_comp (contrEquiv1 dot_S128x128_S128x64_S128x64_1_0_0_1_n_n 128 rfl rfl).symm]
    refine Finset.sum_congr rfl fun e _ => ?_
    have hk := contrEquiv1_symm_val dot_S128x128_S128x64_S128x64_1_0_0_1_n_n 128 rfl rfl e
    have el : dot_S128x128_S128x64_S128x64_1_0_0_1_n_n.lhsIdx (ix2 k o)
        ((contrEquiv1 dot_S128x128_S128x64_S128x64_1_0_0_1_n_n 128 rfl rfl).symm e) = ix2 k e := funext fun a => Fin.ext (by
      match a with
      | ⟨0, _⟩ => exact lhs_tab_0 _ _
      | ⟨1, _⟩ => exact (lhs_tab_1 _ _).trans hk)
    have er : dot_S128x128_S128x64_S128x64_1_0_0_1_n_n.rhsIdx (ix2 k o)
        ((contrEquiv1 dot_S128x128_S128x64_S128x64_1_0_0_1_n_n 128 rfl rfl).symm e) = ix2 e o := funext fun a => Fin.ext (by
      match a with
      | ⟨0, _⟩ => exact (rhs_tab_0 _ _).trans hk
      | ⟨1, _⟩ => exact rhs_tab_1 _ _)
    rw [el, er]
    show max (W1 (ix2 k e) + (broadcastInDim S128x128 ![0, 1] bcast_S1x128_S128x128_0_1
        (broadcastInDim S1x128 ![1] bcast_S128_S1x128_1 b1)) (ix2 k e))
      ((broadcastInDim S128x128 ![] bcast_S_S128x128 (constant (F := Ideal) S_ .f32 0x00000000#32)) (ix2 k e)) * _ = _
    rw [rowBcast_apply (by decide), zeroBcast_apply]
  · exact rowBcast_apply (by decide) _ _ b2 k o

/-! ## The paired table, half by half -/

/-- Rows 0‥127 are [T | 0]. -/
theorem pairTable_top (W1 : FVec Ideal S128x128 .f32) (b1 : FVec Ideal S128 .f32) (W2 : FVec Ideal S128x64 .f32)
    (b2 : FVec Ideal S64 .f32) (k : Fin 128) (q : Fin 128) :
    pairTable (F := Ideal) W1 b1 W2 b2 (ix2 (⟨k.val, by omega⟩ : Fin 256) q)
      = if h : q.val < 64 then tab W1 b1 W2 b2 k ⟨q.val, h⟩ else 0 := by
  unfold pairTable
  rw [concatenate_pair_apply_left (0 : Fin S256x128.rank) _ _ concatenates_S128x128_S128x128_S256x128_d0
    (ix2 (⟨k.val, by omega⟩ : Fin 256) q) rfl (ix2 k q) (fun b => match b with | ⟨0, _⟩ => rfl | ⟨1, _⟩ => rfl)]
  split
  · rename_i h
    rw [concatenate_pair_apply_left (1 : Fin S128x128.rank) _ _ concatenates_S128x64_S128x64_S128x128_d1 (ix2 k q) rfl
      (ix2 k (⟨q.val, h⟩ : Fin 64)) (fun b => match b with | ⟨0, _⟩ => rfl | ⟨1, _⟩ => rfl)]
    exact hostTab_apply W1 b1 W2 b2 k ⟨q.val, h⟩
  · rename_i h
    rw [concatenate_pair_apply_right (1 : Fin S128x128.rank) _ _ concatenates_S128x64_S128x64_S128x128_d1 (ix2 k q) rfl rfl
      (ix2 k (⟨q.val - 64, by omega⟩ : Fin 64))
      (fun b hb => match b, hb with | ⟨0, _⟩, _ => rfl | ⟨1, _⟩, hb => absurd (Fin.ext rfl) hb)
      (by show q.val - 64 + 64 = q.val; omega)]
    exact zeroBcast_apply _ _

/-- Rows 128‥255 are [0 | T]. -/
theorem pairTable_bot (W1 : FVec Ideal S128x128 .f32) (b1 : FVec Ideal S128 .f32) (W2 : FVec Ideal S128x64 .f32)
    (b2 : FVec Ideal S64 .f32) (k : Fin 128) (q : Fin 128) :
    pairTable (F := Ideal) W1 b1 W2 b2 (ix2 (⟨128 + k.val, by omega⟩ : Fin 256) q)
      = if h : q.val < 64 then 0 else tab W1 b1 W2 b2 k ⟨q.val - 64, by omega⟩ := by
  unfold pairTable
  rw [concatenate_pair_apply_right (0 : Fin S256x128.rank) _ _ concatenates_S128x128_S128x128_S256x128_d0
    (ix2 (⟨128 + k.val, by omega⟩ : Fin 256) q) rfl rfl (ix2 k q)
    (fun b hb => match b, hb with | ⟨0, _⟩, hb => absurd (Fin.ext rfl) hb | ⟨1, _⟩, _ => rfl)
    (by show k.val + 128 = 128 + k.val; omega)]
  split
  · rename_i h
    rw [concatenate_pair_apply_left (1 : Fin S128x128.rank) _ _ concatenates_S128x64_S128x64_S128x128_d1 (ix2 k q) rfl
      (ix2 k (⟨q.val, h⟩ : Fin 64)) (fun b => match b with | ⟨0, _⟩ => rfl | ⟨1, _⟩ => rfl)]
    exact zeroBcast_apply _ _
  · rename_i h
    rw [concatenate_pair_apply_right (1 : Fin S128x128.rank) _ _ concatenates_S128x64_S128x64_S128x128_d1 (ix2 k q) rfl rfl
      (ix2 k (⟨q.val - 64, by omega⟩ : Fin 64))
      (fun b hb => match b, hb with | ⟨0, _⟩, _ => rfl | ⟨1, _⟩, hb => absurd (Fin.ext rfl) hb)
      (by show q.val - 64 + 64 = q.val; omega)]
    exact hostTab_apply W1 b1 W2 b2 k ⟨q.val - 64, by omega⟩

end Cert.Lookup.Ker

end
-- ==== Proof.Ids.lean ====
/-
  The ids as the kernel's host prefix stages them: each id clipped into [0, 127] (the signed maximum with 0, then the
  signed minimum with 127), the 1024 × 512 array viewed 262144 × 2 — row r holds tokens 2 r and 2 r + 1 — and cut
  into its two columns, one per window.
-/
import proofs.«416124_j67242007986617_3_alg».proof.Proof.Gen.KernelIdeal.Frame
import proofs.«416124_j67242007986617_3_alg».proof.Proof.Spec
import Idealize.ShloMosaic.Lib.StableHlo.Run
import Idealize.ShloMosaic.Lib.Pipeline.Value

noncomputable section

namespace Cert.Lookup.Ker

open Idealize.ShloMosaic Idealize.ShloMosaic.TcCoe Idealize.SL.Sem Idealize.ShloMosaic.StableHlo
open Idealize.ShloMosaic.ValueIdx
open Cert.KernelIdeal Cert.KernelIdeal.Gen

variable {F : FTy → Type} [FloatOps F]

/-- The ids clipped into [0, 127] and paired. -/
def pairedIds (x : IVec S1024x512 32) : IVec S262144x2 32 :=
  shapeCast S262144x2
    (minsi (broadcastInDim S1024x512 ![] bcast_S_S1024x512 (constantI S_ 32 127#32))
      (maxsi (broadcastInDim S1024x512 ![] bcast_S_S1024x512 (constantI S_ 32 0#32)) x))
    shapeCasts_S1024x512_S262144x2

/-- The even tokens' clipped ids, one per pair row. -/
def idCol0 (x : IVec S1024x512 32) : IVec S262144x1 32 :=
  extractStridedSlice S262144x1 ![0, 0] (pairedIds x) slices_S262144x2_S262144x1_0_0
/-- The odd tokens' clipped ids. -/
def idCol1 (x : IVec S1024x512 32) : IVec S262144x1 32 :=
  extractStridedSlice S262144x1 ![0, 1] (pairedIds x) slices_S262144x2_S262144x1_0_1

set_option maxHeartbeats 1000000 in
/-- The region finds window 0's array at the even tokens' column. -/
theorem V_ids0 (m : (ℓ : Loc nD τ sig) → Buf (Elt F) ℓ) (c : Dev nD) :
    (V m c main_v15 : S262144x1.Idx → BitVec 32) = idCol0 (m ((c : Thread nD τ).loc main_arg0)) := by
  dsimp only [Gen.V, Gen.V0]
  simp only [hostOps0, hostOps0_1, hostOps0_2, List.flatten_cons, List.flatten_nil, List.append_nil, List.cons_append,
    List.nil_append]
  after_results
  rfl

set_option maxHeartbeats 1000000 in
/-- The region finds window 1's array at the odd tokens' column. -/
theorem V_ids1 (m : (ℓ : Loc nD τ sig) → Buf (Elt F) ℓ) (c : Dev nD) :
    (V m c main_v16 : S262144x1.Idx → BitVec 32) = idCol1 (m ((c : Thread nD τ).loc main_arg0)) := by
  dsimp only [Gen.V, Gen.V0]
  simp only [hostOps0, hostOps0_1, hostOps0_2, List.flatten_cons, List.flatten_nil, List.append_nil, List.cons_append,
    List.nil_append]
  after_results
  rfl

/-- Row r, column j of the pair array is the clip of the token at row-major position 2 r + j. -/
theorem pairedIds_apply (x : IVec S1024x512 32) (r : Fin 262144) (j : Fin 2) (k : S1024x512.Idx)
    (hk : (k 0).val * 512 + (k 1).val = r.val * 2 + j.val) :
    pairedIds x (ix2 r j) = IntOp.minsi 127#32 (IntOp.maxsi 0#32 (x k)) := by
  unfold pairedIds
  rw [shapeCast_apply _ _ (ix2 r j) k (by rw [Shape.rowMajor_val_two, Shape.rowMajor_val_two]; exact hk)]
  rfl

/-- Row r of the even column is the clip of token 2 r. -/
theorem idCol0_apply (x : IVec S1024x512 32) (r : Fin 262144) (k : S1024x512.Idx)
    (hk : (k 0).val * 512 + (k 1).val = r.val * 2) :
    idCol0 x (ix2 r (0 : Fin 1)) = IntOp.minsi 127#32 (IntOp.maxsi 0#32 (x k)) := by
  unfold idCol0
  rw [extractStridedSlice_apply _ _ _ (ix2 r (0 : Fin 1)) (ix2 r (0 : Fin 2)) (fun a => match a with
    | ⟨0, _⟩ => by show r.val = 0 + r.val; omega
    | ⟨1, _⟩ => by show (0 : Nat) = 0 + 0; rfl)]
  exact pairedIds_apply x r 0 k (by show _ = r.val * 2 + 0; omega)

/-- Row r of the odd column is the clip of token 2 r + 1. -/
theorem idCol1_apply (x : IVec S1024x512 32) (r : Fin 262144) (k : S1024x512.Idx)
    (hk : (k 0).val * 512 + (k 1).val = r.val * 2 + 1) :
    idCol1 x (ix2 r (0 : Fin 1)) = IntOp.minsi 127#32 (IntOp.maxsi 0#32 (x k)) := by
  unfold idCol1
  rw [extractStridedSlice_apply _ _ _ (ix2 r (0 : Fin 1)) (ix2 r (1 : Fin 2)) (fun a => match a with
    | ⟨0, _⟩ => by show r.val = 0 + r.val; omega
    | ⟨1, _⟩ => by show (1 : Nat) = 1 + 0; rfl)]
  exact pairedIds_apply x r 1 k (by show _ = r.val * 2 + 1; omega)

end Cert.Lookup.Ker

end
-- ==== Proof.Body.lean ====
/-
  The body's one store, read at an index.

  At a grid point the body holds 8192 pair rows: two id columns a, b and the 256 × 128 paired table t. It builds the
  two one-hot halves "id == lane" (as 0 / 1), lays them side by side into 8192 × 256 and multiplies by t into a zero
  accumulator. Row p of the product, at column q, is therefore t[a p, q] + t[128 + b p, q] whenever the two ids are words
  of naturals below 128: every other term of the contraction has a zero factor.
-/
import proofs.«416124_j67242007986617_3_alg».proof.Proof.Gen.KernelIdeal.Skeleton
import proofs.«416124_j67242007986617_3_alg».proof.Proof.Spec
import Idealize.ShloMosaic.Lib.Pipeline.Value
import Idealize.ShloMosaic.PureOps.Ideal.Laws

noncomputable section

namespace Cert.Lookup.Ker

open Idealize.ShloMosaic Idealize.ShloMosaic.ValueIdx
open Cert.KernelIdeal Cert.KernelIdeal.Gen

variable {F : FTy → Type} [FloatOps F]

/-- One one-hot half: "id of the row == lane", as a bit, widened to a word and converted to a float. -/
def hot (v : Vec F S8192x1 .i32) : FVec F S8192x128 .f32 :=
  sitofp .f32 (extui 32 (cmpi .eq
    (broadcastTo S8192x128 (shapeCast S8192x1 v shapeCasts_S8192x1_S8192x1) broadcasts_S8192x1_S8192x128)
    (iota .tc S8192x128 32 [1] iota_S8192x128_d1_w32)) natLt_1_32)

/-- The two halves side by side. -/
def hotPair (v1 v7 : Vec F S8192x1 .i32) : FVec F S8192x256 .f32 :=
  concatenate S8192x256 1 [⟨S8192x128, hot v1⟩, ⟨S8192x128, hot v7⟩] concatenates_S8192x128_S8192x128_S8192x256_d1

/-- The payload is the product of the two-hot rows with the table, into a zero accumulator. -/
theorem pay_eq (v1 v7 : Vec F S8192x1 .i32) (v14 : Vec F S256x128 .f32) :
    k0_pay1 v1 v7 v14 = matmul dot_S8192x256_S256x128_S8192x128_1_0_0_1_n_n none (hotPair v1 v7)
      (shapeCast S256x128 v14 shapeCasts_S256x128_S256x128) (constant S8192x128 .f32 0x00000000#32) := rfl

/-- Entry (p, k) of a one-hot half is 1 where row p's id is the word of k, else 0. -/
theorem hot_apply (v : Vec Ideal S8192x1 .i32) (p : Fin 8192) (k : Fin 128) :
    hot (F := Ideal) v (ix2 p k) = if v (ix2 p (0 : Fin 1)) = BitVec.ofNat 32 k.val then (1 : EReal) else 0 := by
  unfold hot
  show FloatOps.sitofp (F := Ideal) .f32 ((IntOp.cmpi .eq
    (broadcastTo S8192x128 (shapeCast S8192x1 v shapeCasts_S8192x1_S8192x1) broadcasts_S8192x1_S8192x128 (ix2 p k))
    (iota .tc S8192x128 32 [1] iota_S8192x128_d1_w32 (ix2 p k))).setWidth 32) = _
  rw [broadcastTo_apply _ _ (ix2 p k) (ix2 p (0 : Fin 1)) (fun a => match a with
      | ⟨0, _⟩ => by show p.val = if (8192 : Nat) = 1 then 0 else p.val; rw [if_neg (by decide)]
      | ⟨1, _⟩ => by show (0 : Nat) = if (1 : Nat) = 1 then 0 else _; rw [if_pos rfl]),
    shapeCast_self, iota_single_apply]
  exact onehot_entry _ _

theorem lhs_mm_0 (i : S8192x128.Idx) (q : dot_S8192x256_S256x128_S8192x128_1_0_0_1_n_n.contr.Idx) :
    (dot_S8192x256_S256x128_S8192x128_1_0_0_1_n_n.lhsIdx i q 0).val = (i 0).val := by
  unfold DotDims.lhsIdx
  rw [dif_neg (show ¬(0 : Fin S8192x256.rank) ∈ dot_S8192x256_S256x128_S8192x128_1_0_0_1_n_n.lhsBatch by decide),
    dif_pos (show (0 : Fin S8192x256.rank) ∈ dot_S8192x256_S256x128_S8192x128_1_0_0_1_n_n.lhsNonContracting by decide)]
  rfl
theorem lhs_mm_1 (i : S8192x128.Idx) (q : dot_S8192x256_S256x128_S8192x128_1_0_0_1_n_n.contr.Idx) :
    (dot_S8192x256_S256x128_S8192x128_1_0_0_1_n_n.lhsIdx i q 1).val = (q ⟨0, by decide⟩).val :=
  dot_S8192x256_S256x128_S8192x128_1_0_0_1_n_n.lhsIdx_val_of_single rfl i q
theorem rhs_mm_0 (i : S8192x128.Idx) (q : dot_S8192x256_S256x128_S8192x128_1_0_0_1_n_n.contr.Idx) :
    (dot_S8192x256_S256x128_S8192x128_1_0_0_1_n_n.rhsIdx i q 0).val = (q ⟨0, by decide⟩).val :=
  dot_S8192x256_S256x128_S8192x128_1_0_0_1_n_n.rhsIdx_val_of_single rfl i q
theorem rhs_mm_1 (i : S8192x128.Idx) (q : dot_S8192x256_S256x128_S8192x128_1_0_0_1_n_n.contr.Idx) :
    (dot_S8192x256_S256x128_S8192x128_1_0_0_1_n_n.rhsIdx i q 1).val = (i 1).val := by
  unfold DotDims.rhsIdx
  rw [dif_neg (show ¬(1 : Fin S256x128.rank) ∈ dot_S8192x256_S256x128_S8192x128_1_0_0_1_n_n.rhsBatch by decide),
    dif_pos (show (1 : Fin S256x128.rank) ∈ dot_S8192x256_S256x128_S8192x128_1_0_0_1_n_n.rhsNonContracting by decide)]
  rfl

/-- THE PAYLOAD AT (p, q): with row p's two ids the words of a and b (both below 128), the product's entry is the
    table's entry at row a plus its entry at row 128 + b, column q. -/
theorem pay_apply (v1 v7 : Vec Ideal S8192x1 .i32) (v14 : Vec Ideal S256x128 .f32) (p : Fin 8192) (q : Fin 128)
    (a b : Fin 128) (ha : v1 (ix2 p (0 : Fin 1)) = BitVec.ofNat 32 a.val) (hb : v7 (ix2 p (0 : Fin 1)) = BitVec.ofNat 32 b.val) :
    k0_pay1 v1 v7 v14 (ix2 p q)
      = v14 (ix2 (⟨a.val, by omega⟩ : Fin 256) q) + v14 (ix2 (⟨128 + b.val, by omega⟩ : Fin 256) q) := by
  rw [pay_eq]
  refine (Ideal.matmul_constant_zero_apply dot_S8192x256_S256x128_S8192x128_1_0_0_1_n_n none _ _ (ix2 p q)).trans ?_
  rw [← Equiv.sum_comp (contrEquiv1 dot_S8192x256_S256x128_S8192x128_1_0_0_1_n_n 256 rfl rfl).symm]
  have step : ∀ k : Fin 256,
      hotPair v1 v7 (dot_S8192x256_S256x128_S8192x128_1_0_0_1_n_n.lhsIdx (ix2 p q)
          ((contrEquiv1 dot_S8192x256_S256x128_S8192x128_1_0_0_1_n_n 256 rfl rfl).symm k))
        * shapeCast S256x128 v14 shapeCasts_S256x128_S256x128 (dot_S8192x256_S256x128_S8192x128_1_0_0_1_n_n.rhsIdx (ix2 p q)
          ((contrEquiv1 dot_S8192x256_S256x128_S8192x128_1_0_0_1_n_n 256 rfl rfl).symm k))
      = hotPair v1 v7 (ix2 p k) * v14 (ix2 k q) := by
    intro k
    have hk := contrEquiv1_symm_val dot_S8192x256_S256x128_S8192x128_1_0_0_1_n_n 256 rfl rfl k
    have el : dot_S8192x256_S256x128_S8192x128_1_0_0_1_n_n.lhsIdx (ix2 p q)
        ((contrEquiv1 dot_S8192x256_S256x128_S8192x128_1_0_0_1_n_n 256 rfl rfl).symm k) = ix2 p k := funext fun x => Fin.ext (by
      match x with
      | ⟨0, _⟩ => exact lhs_mm_0 _ _
      | ⟨1, _⟩ => exact (lhs_mm_1 _ _).trans hk)
    have er : dot_S8192x256_S256x128_S8192x128_1_0_0_1_n_n.rhsIdx (ix2 p q)
        ((contrEquiv1 dot_S8192x256_S256x128_S8192x128_1_0_0_1_n_n 256 rfl rfl).symm k) = ix2 k q := funext fun x => Fin.ext (by
      match x with
      | ⟨0, _⟩ => exact (rhs_mm_0 _ _).trans hk
      | ⟨1, _⟩ => exact rhs_mm_1 _ _)
    rw [el, er, shapeCast_self]
  rw [Finset.sum_congr rfl (fun k _ => step k)]
  refine sum_two_hot (fun k => hotPair v1 v7 (ix2 p k)) (fun k => v14 (ix2 k q)) a b (fun k hk => ?_) (fun k hk => ?_)
  · show hotPair v1 v7 (ix2 p k) = _
    unfold hotPair
    rw [concatenate_pair_apply_left (1 : Fin S8192x256.rank) _ _ concatenates_S8192x128_S8192x128_S8192x256_d1 (ix2 p k) rfl
      (ix2 p (⟨k.val, hk⟩ : Fin 128)) (fun x => match x with | ⟨0, _⟩ => rfl | ⟨1, _⟩ => rfl), hot_apply, ha]
    refine if_congr ?_ rfl rfl
    rw [ofNat_eq_iff a.val k.val (by omega) (by omega)]
    exact ⟨fun h => h.symm, fun h => h.symm⟩
  · show hotPair v1 v7 (ix2 p k) = _
    unfold hotPair
    rw [concatenate_pair_apply_right (1 : Fin S8192x256.rank) _ _ concatenates_S8192x128_S8192x128_S8192x256_d1 (ix2 p k) rfl rfl
      (ix2 p (⟨k.val - 128, by omega⟩ : Fin 128))
      (fun x hx => match x, hx with | ⟨0, _⟩, _ => rfl | ⟨1, _⟩, hx => absurd (Fin.ext rfl) hx)
      (by show k.val - 128 + 128 = k.val; omega), hot_apply, hb]
    refine if_congr ?_ rfl rfl
    rw [ofNat_eq_iff b.val (k.val - 128) (by omega) (by omega)]
    constructor <;> intro h <;> omega

end Cert.Lookup.Ker

end
-- ==== Proof.RowValue.lean ====
/-
  One pair row of the kernel's result against the specification.

  Pair row R holds tokens 2 R and 2 R + 1 (row-major in the 1024 × 512 id array); its 128 output columns are the even
  token's 64 features followed by the odd token's. With a, b the two tokens' table rows, column q of the kernel's row is
  t[a, q] + t[128 + b, q] on the paired table t = [T | 0] over [0 | T]: for q < 64 that is T[a, q] + 0, else 0 + T[b, q - 64].
  Viewed 1024 × 512 × 64 (the same row-major order) that is the specification `G`.
-/
import proofs.«416124_j67242007986617_3_alg».proof.Proof.Spec
import proofs.«416124_j67242007986617_3_alg».proof.Proof.Table

noncomputable section

namespace Cert.Lookup.Ker

open Idealize.ShloMosaic Idealize.ShloMosaic.ValueIdx
open Cert.KernelIdeal Cert.KernelIdeal.Gen

/-- The specification's result viewed as 262144 pair rows of 128 columns (the same row-major order). -/
def Gflat (x : IVec S1024x512 32) (W1 : FVec Ideal S128x128 .f32) (b1 : FVec Ideal S128 .f32) (W2 : FVec Ideal S128x64 .f32)
    (b2 : FVec Ideal S64 .f32) : S262144x128.Idx → EReal :=
  shapeCast S262144x128 (G x W1 b1 W2 b2) (by decide : S1024x512x64.ShapeCasts S262144x128)

/-- The token at row-major position n of the id array. -/
abbrev token (n : Nat) (hn : n < 524288) : S1024x512.Idx :=
  ix2 (⟨n / 512, by omega⟩ : Fin 1024) (⟨n % 512, by omega⟩ : Fin 512)

theorem token_pos (n : Nat) (hn : n < 524288) : (token n hn 0).val * 512 + (token n hn 1).val = n := by
  show n / 512 * 512 + n % 512 = n
  omega

/-- THE ROW: the two surviving table entries of pair row R at column q are the specification's entry there. -/
theorem row_value (x : IVec S1024x512 32) (W1 : FVec Ideal S128x128 .f32) (b1 : FVec Ideal S128 .f32)
    (W2 : FVec Ideal S128x64 .f32) (b2 : FVec Ideal S64 .f32) (R : Fin 262144) (q : Fin 128) :
    pairTable (F := Ideal) W1 b1 W2 b2 (ix2 (⟨(row (x (token (R.val * 2) (by omega)))).val, by omega⟩ : Fin 256) q)
      + pairTable (F := Ideal) W1 b1 W2 b2 (ix2 (⟨128 + (row (x (token (R.val * 2 + 1) (by omega)))).val, by omega⟩ : Fin 256) q)
      = Gflat x W1 b1 W2 b2 (ix2 R q) := by
  rw [pairTable_top, pairTable_bot]
  unfold Gflat
  by_cases h : q.val < 64
  · rw [dif_pos h, dif_pos h, add_zero,
      shapeCast_apply _ _ (ix2 R q) (ix3 (⟨R.val * 2 / 512, by omega⟩ : Fin 1024) (⟨R.val * 2 % 512, by omega⟩ : Fin 512) (⟨q.val, h⟩ : Fin 64))
        (by rw [Shape.rowMajor_val_three, Shape.rowMajor_val_two]
            show (R.val * 2 / 512 * 512 + R.val * 2 % 512) * 64 + q.val = R.val * 128 + q.val
            omega)]
    rfl
  · rw [dif_neg h, dif_neg h, zero_add,
      shapeCast_apply _ _ (ix2 R q) (ix3 (⟨(R.val * 2 + 1) / 512, by omega⟩ : Fin 1024) (⟨(R.val * 2 + 1) % 512, by omega⟩ : Fin 512) (⟨q.val - 64, by omega⟩ : Fin 64))
        (by rw [Shape.rowMajor_val_three, Shape.rowMajor_val_two]
            show ((R.val * 2 + 1) / 512 * 512 + (R.val * 2 + 1) % 512) * 64 + (q.val - 64) = R.val * 128 + q.val
            omega)]
    rfl

end Cert.Lookup.Ker

end
-- ==== Proof.Blocks.lean ====
/-
  From the grid's blocks to the whole result array.

  The grid has 32 points; point t stages pair rows 8192 t ‥ 8192 t + 8191 of each id column (one column per window), the
  whole paired table, and writes back the same 8192 rows of the 262144 × 128 result. So what point t writes back is its
  block of ONE whole array — the specification viewed as pair rows, `Gflat` — and the 32 blocks tile the array.
-/
import proofs.«416124_j67242007986617_3_alg».proof.Proof.Gen.KernelIdeal.Frame
import proofs.«416124_j67242007986617_3_alg».proof.Proof.Spec
import proofs.«416124_j67242007986617_3_alg».proof.Proof.Table
import proofs.«416124_j67242007986617_3_alg».proof.Proof.Ids
import proofs.«416124_j67242007986617_3_alg».proof.Proof.Body
import proofs.«416124_j67242007986617_3_alg».proof.Proof.RowValue
import Idealize.ShloMosaic.Lib.Pipeline.Value

noncomputable section

namespace Cert.Lookup.Ker

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

theorem hz : (![0, 0] : Fin 2 → Nat) = fun _ => 0 := funext fun a => by fin_cases a <;> rfl

/-- The clip of an id is the word of its table row. -/
theorem clip_eq (v : BitVec 32) : IntOp.minsi 127#32 (IntOp.maxsi 0#32 v) = BitVec.ofNat 32 (row v).val := by
  rw [← clip_toNat]
  exact BitVec.eq_of_toNat_eq (by rw [BitVec.toNat_ofNat, Nat.mod_eq_of_lt (BitVec.isLt _)])

/-- The printed index maps over the 32 points: the two id windows and the result window move one block of rows per
    point, the table window stays. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## The input blocks -/

/-- Row p of window 0's block at point t is pair row 8192 t + p of the even tokens' column. -/
theorem iblk0_apply (c : Dev nD) (t : Fin cfg0.N) (p : Fin 8192) (R : Fin 262144) (hR : R.val = 8192 * t.val + p.val) :
    (iblk m c 0 t : Vec Ideal S8192x1 .i32) (ix2 p (0 : Fin 1)) = idCol0 (m ((c : Thread nD τ).loc main_arg0)) (ix2 R (0 : Fin 1)) := by
  obtain ⟨e0, e1, -⟩ := idx_facts t
  unfold iblk
  rw [View.read_apply]
  show (V m c main_v15 : S262144x1.Idx → BitVec 32) _ = _
  rw [V_ids0]
  congr 1
  funext a
  apply Fin.ext
  match a with
  | ⟨0, _⟩ => show win0_0.index t (0 : Fin 2) * 8192 + 1 * p.val = R.val; rw [e0, hR]; omega
  | ⟨1, _⟩ => show win0_0.index t (1 : Fin 2) * 1 + 1 * 0 = 0; rw [e1]

/-- Row p of window 1's block at point t is pair row 8192 t + p of the odd tokens' column. -/
theorem iblk1_apply (c : Dev nD) (t : Fin cfg0.N) (p : Fin 8192) (R : Fin 262144) (hR : R.val = 8192 * t.val + p.val) :
    (iblk m c 1 t : Vec Ideal S8192x1 .i32) (ix2 p (0 : Fin 1)) = idCol1 (m ((c : Thread nD τ).loc main_arg0)) (ix2 R (0 : Fin 1)) := by
  obtain ⟨-, -, e0, e1, -⟩ := idx_facts t
  unfold iblk
  rw [View.read_apply]
  show (V m c main_v16 : S262144x1.Idx → BitVec 32) _ = _
  rw [V_ids1]
  congr 1
  funext a
  apply Fin.ext
  match a with
  | ⟨0, _⟩ => show win0_1.index t (0 : Fin 2) * 8192 + 1 * p.val = R.val; rw [e0, hR]; omega
  | ⟨1, _⟩ => show win0_1.index t (1 : Fin 2) * 1 + 1 * 0 = 0; rw [e1]

/-- Window 2's block at every point is the whole paired table. -/
theorem iblk2_apply (c : Dev nD) (t : Fin cfg0.N) (k : Fin 256) (q : Fin 128) :
    (iblk m c 2 t : Vec Ideal S256x128 .f32) (ix2 k q)
      = pairTable (F := Ideal) (m ((c : Thread nD τ).loc main_arg1)) (m ((c : Thread nD τ).loc main_arg2))
          (m ((c : Thread nD τ).loc main_arg3)) (m ((c : Thread nD τ).loc main_arg4)) (ix2 k q) := by
  obtain ⟨-, -, -, -, e0, e1, -⟩ := idx_facts t
  unfold iblk
  rw [View.read_apply]
  show (V m c main_v12 : S256x128.Idx → EReal) _ = _
  rw [V_table]
  congr 1
  funext a
  apply Fin.ext
  match a with
  | ⟨0, _⟩ => show win0_2.index t (0 : Fin 2) * 256 + 1 * k.val = k.val; rw [e0]; omega
  | ⟨1, _⟩ => show win0_2.index t (1 : Fin 2) * 128 + 1 * q.val = q.val; rw [e1]; omega

/-! ## What a point writes back -/

/-- WHAT POINT t WRITES BACK is block t of the specification viewed as pair rows. -/
theorem flushed_eq (c : Dev nD) (t : Fin cfg0.N) :
    (dats m 0 c).flushed 3 t = ((cfg0.win 3).blk t).view.read (Elt Ideal)
      (Gflat (m ((c : Thread nD τ).loc main_arg0)) (m ((c : Thread nD τ).loc main_arg1)) (m ((c : Thread nD τ).loc main_arg2))
        (m ((c : Thread nD τ).loc main_arg3)) (m ((c : Thread nD τ).loc main_arg4))) := by
  show (cfg0.win 3).cut (grid0.coords t) ((dats m 0 c).after 3 t) = _
  rw [after0_3]
  unfold out0_3
  rw [View.canon_unit_zero hz]
  simp only [View.ld_unit_zero (S := S8192x1) hz, View.ld_unit_zero (S := S256x128) hz]
  funext j
  obtain ⟨p, q, rfl⟩ : ∃ (p : Fin 8192) (q : Fin 128), j = ix2 p q := ⟨j 0, j 1, eq_ix2 j⟩
  have ht : t.val < 32 := lt_of_lt_of_eq t.isLt N_0
  have hp : p.val < 8192 := p.isLt
  obtain ⟨-, -, -, -, -, -, e0, e1⟩ := idx_facts t
  show k0_pay1 (iblk m c 0 t) (iblk m c 1 t) (iblk m c 2 t) (ix2 p q)
    = Gflat (m ((c : Thread nD τ).loc main_arg0)) (m ((c : Thread nD τ).loc main_arg1)) (m ((c : Thread nD τ).loc main_arg2))
        (m ((c : Thread nD τ).loc main_arg3)) (m ((c : Thread nD τ).loc main_arg4)) (((cfg0.win 3).blk t).view.emb (ix2 p q))
  have hemb : ((cfg0.win 3).blk t).view.emb (ix2 p q) = ix2 (⟨8192 * t.val + p.val, by omega⟩ : Fin 262144) q := by
    funext a
    apply Fin.ext
    match a with
    | ⟨0, _⟩ => show win0_3.index t (0 : Fin 2) * 8192 + 1 * p.val = 8192 * t.val + p.val; rw [e0]; omega
    | ⟨1, _⟩ => show win0_3.index t (1 : Fin 2) * 128 + 1 * q.val = q.val; rw [e1]; omega
  rw [hemb, ← row_value]
  refine (pay_apply (iblk m c 0 t) (iblk m c 1 t) (iblk m c 2 t) p q
    (row ((m ((c : Thread nD τ).loc main_arg0) : S1024x512.Idx → BitVec 32) (token ((8192 * t.val + p.val) * 2) (by omega))))
    (row ((m ((c : Thread nD τ).loc main_arg0) : S1024x512.Idx → BitVec 32) (token ((8192 * t.val + p.val) * 2 + 1) (by omega))))
    ?_ ?_).trans ?_
  · rw [iblk0_apply m c t p ⟨8192 * t.val + p.val, by omega⟩ rfl,
      idCol0_apply _ _ (token ((8192 * t.val + p.val) * 2) (by omega)) (token_pos _ _), clip_eq]
  · rw [iblk1_apply m c t p ⟨8192 * t.val + p.val, by omega⟩ rfl,
      idCol1_apply _ _ (token ((8192 * t.val + p.val) * 2 + 1) (by omega)) (token_pos _ _), clip_eq]
  · rw [iblk2_apply, iblk2_apply]

/-! ## The cover and the final array -/

/-- A pair-row index is in point t's block iff each coordinate is in the block's range on its axis. -/
theorem mem_blk (t : Fin cfg0.N) (i : S262144x128.Idx) :
    i ∈ ((cfg0.win 3).blk t).view.set ↔ ∀ a : Fin 2, win0_3.index t a * S8192x128.size a ≤ (i a).val
      ∧ (i a).val < win0_3.index t a * S8192x128.size a + S8192x128.size a := by
  show i ∈ ((View.whole main_v17).slice (win0_3.rect t)).set ↔ _
  rw [View.set_slice_whole, Rect.mem_set_unit]
  exact Iff.rfl

/-- Every pair row lies in the block of the point "row / 8192". -/
theorem cover (i : S262144x128.Idx) : ∃ t : Fin cfg0.N, (cfg0.win 3).flush t = true ∧ i ∈ ((cfg0.win 3).blk t).view.set := by
  have h0 : (i 0).val < 262144 := (i 0).isLt
  have h1 : (i 1).val < 128 := (i 1).isLt
  have hN : (i 0).val / 8192 < cfg0.N := lt_of_lt_of_eq (show (i 0).val / 8192 < 32 by omega) N_0.symm
  obtain ⟨-, -, -, -, -, -, e0, e1⟩ := idx_facts ⟨(i 0).val / 8192, hN⟩
  refine ⟨⟨(i 0).val / 8192, hN⟩, flush0_3 _, ?_⟩
  rw [mem_blk]
  intro a
  match a with
  | ⟨0, _⟩ =>
    show win0_3.index ⟨(i 0).val / 8192, hN⟩ (0 : Fin 2) * 8192 ≤ (i 0).val
      ∧ (i 0).val < win0_3.index ⟨(i 0).val / 8192, hN⟩ (0 : Fin 2) * 8192 + 8192
    rw [e0]; show (i 0).val / 8192 * 8192 ≤ (i 0).val ∧ (i 0).val < (i 0).val / 8192 * 8192 + 8192; omega
  | ⟨1, _⟩ =>
    show win0_3.index ⟨(i 0).val / 8192, hN⟩ (1 : Fin 2) * 128 ≤ (i 1).val
      ∧ (i 1).val < win0_3.index ⟨(i 0).val / 8192, hN⟩ (1 : Fin 2) * 128 + 128
    rw [e1]; omega

/-- THE RESULT WINDOW'S ARRAY after the run: the specification viewed as pair rows. -/
theorem final (c : Dev nD) : (dats m 0 c).arrAt 3 cfg0.N
    = Gflat (m ((c : Thread nD τ).loc main_arg0)) (m ((c : Thread nD τ).loc main_arg1)) (m ((c : Thread nD τ).loc main_arg2))
        (m ((c : Thread nD τ).loc main_arg3)) (m ((c : Thread nD τ).loc main_arg4)) :=
  (dats m 0 c).arrAt_eq_of_cover 3 _ (fun t _ => flushed_eq m c t) cover

end Cert.Lookup.Ker

end
-- ==== Proof.KernelRun.lean ====
/-
  The idealized kernel's run, read: its result array ends at the specification `G` of the argument arrays.

  After the region the host views the 262144 × 128 result window's array as 1024 × 512 × 64. The array is `G` viewed as
  pair rows, so the view back is `G`: a reshape there and back is the identity.
-/
import proofs.«416124_j67242007986617_3_alg».proof.Proof.Gen.KernelIdeal.Frame
import proofs.«416124_j67242007986617_3_alg».proof.Proof.Blocks
import Idealize.ShloMosaic.Lib.StableHlo.Run

noncomputable section

namespace Cert.Lookup.Ker

open Idealize.ShloMosaic Idealize.ShloMosaic.TcCoe Idealize.SL.Sem Idealize.ShloMosaic.StableHlo
open Idealize.ShloMosaic.ValueIdx
open Cert.KernelIdeal Cert.KernelIdeal.Gen

variable (m : (ℓ : Loc nD τ sig) → Buf (Elt Ideal) ℓ) (ρ : Dev nD → PrngReg)

/-- The host's view of the result window's array after the region is the specification. -/
theorem tail_eq (c : Dev nD) :
    (Pipeline.afterTail₀ cfgs (dats m) 0 (V0 m) [hostOps1] c main_v18 : S1024x512x64.Idx → EReal)
      = G (m ((c : Thread nD τ).loc main_arg0)) (m ((c : Thread nD τ).loc main_arg1)) (m ((c : Thread nD τ).loc main_arg2))
        (m ((c : Thread nD τ).loc main_arg3)) (m ((c : Thread nD τ).loc main_arg4)) := by
  unfold Pipeline.afterTail₀
  show StableHlo.after hostOps1 _ (Proc.devRef .tc main_v18) = _
  after_results
  have hw : Pipeline.withArrays (cfgs 0).spec c (V0 m c) (fun w => (dats m 0 c).arrAt w (cfgs 0).N) (Proc.devRef .tc main_v17)
      = Gflat (m ((c : Thread nD τ).loc main_arg0)) (m ((c : Thread nD τ).loc main_arg1)) (m ((c : Thread nD τ).loc main_arg2))
        (m ((c : Thread nD τ).loc main_arg3)) (m ((c : Thread nD τ).loc main_arg4)) :=
    (Pipeline.withArrays_arr spec0 launch0.win.arr_inj c _ _ 3).trans (final m c)
  rw [hw]
  exact shapeCast_shapeCast _ _ _

/-- THE RUN: every weakly fair execution of the idealized kernel terminates with its result array at the
    specification of the argument arrays, and the argument arrays unchanged. -/
theorem run : θ_run defs (onTc (τ := τ) (main (F := Ideal))) ⟨m, fun _ => 0, ρ⟩ fun r => ∀ c : Dev nD,
      r.2.mem ((c : Thread nD τ).loc main_v18) = G (m ((c : Thread nD τ).loc main_arg0)) (m ((c : Thread nD τ).loc main_arg1)) (m ((c : Thread nD τ).loc main_arg2))
        (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).2 main_v18 (Pipeline.mem_restRefs_of main_v18 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.Lookup.Ker

end
-- ==== Proof.lean ====
/-
  The certificate of a paired table lookup against its two-layer reference.

  Both programs map a token's id to one row of the table T = relu (W1 + b1) · W2 + b2 (128 × 64), and they differ only in
  how they arrive at the row. The kernel clips the id into [0, 127] on the host, pairs consecutive tokens, and inside the
  region multiplies a two-hot row (the pair's two one-hots side by side) with the block-diagonal table [T | 0] over
  [0 | T]; the reference wraps a negative id (id + 128), gathers the row of W1 with the start index clamped into
  [0, 127], and applies the two layers to it. Where ids are nonnegative — the precondition's one added conjunct; at the
  id -1 the reference reads row 127 and the kernel row 0 — both rows are `row id = min id 127`, and both results are
  `G` (Proof/Spec.lean). No law of the extended reals beyond 0 * y = 0, y + 0 = y and 0 + y = y is used, so the
  finiteness conjuncts of the precondition are never opened.

  Modules: Spec (the specification and the word arithmetic), PreDecode (the sign of every id from the precondition),
  RefSide (the reference is `G`), Table / Ids (what the kernel's host prefix stages), Body (the product at an index),
  RowValue (one pair row against `G`), Blocks (the grid's blocks tile the result), KernelRun (the host tail and the run).
-/
import proofs.«416124_j67242007986617_3_alg».proof.Defs
import proofs.«416124_j67242007986617_3_alg».proof.Proof.Gen.Kernel
import proofs.«416124_j67242007986617_3_alg».proof.Proof.Gen.Kernel.Skeleton
import proofs.«416124_j67242007986617_3_alg».proof.Proof.Gen.Kernel.Launch
import proofs.«416124_j67242007986617_3_alg».proof.Proof.Gen.Kernel.Points
import proofs.«416124_j67242007986617_3_alg».proof.Proof.Gen.Kernel.Frame
import proofs.«416124_j67242007986617_3_alg».proof.Proof.Gen.KernelIdeal
import proofs.«416124_j67242007986617_3_alg».proof.Proof.Gen.KernelIdeal.Skeleton
import proofs.«416124_j67242007986617_3_alg».proof.Proof.Gen.KernelIdeal.Launch
import proofs.«416124_j67242007986617_3_alg».proof.Proof.Gen.KernelIdeal.Points
import proofs.«416124_j67242007986617_3_alg».proof.Proof.Gen.KernelIdeal.Frame
import proofs.«416124_j67242007986617_3_alg».proof.Proof.Gen.ReferenceIdeal
import proofs.«416124_j67242007986617_3_alg».proof.Proof.Gen.ReferenceIdeal.Run
import proofs.«416124_j67242007986617_3_alg».proof.Proof.Gen.ReferenceIdeal.Read
import proofs.«416124_j67242007986617_3_alg».proof.Proof.Gen.Pre_finite_inputs
import proofs.«416124_j67242007986617_3_alg».proof.Proof.PreDecode
import proofs.«416124_j67242007986617_3_alg».proof.Proof.RefSide
import proofs.«416124_j67242007986617_3_alg».proof.Proof.KernelRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end at `G` of argument arrays that agree: the kernel's by its run read back, the reference's because its
    last stage is `G` wherever ids are nonnegative, which the precondition says of the kernel's ids and the agreement
    carries to the reference's. -/
theorem algebraic : Cert.algebraic_KernelIdeal_ReferenceIdeal := by
  intro m ρ m' ρ' hpre hagree
  refine ⟨fun c => Cert.Lookup.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.Lookup.Ker.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, (hagree c).1, (hagree c).2.1, (hagree c).2.2.1, (hagree c).2.2.2.1,
    (hagree c).2.2.2.2]
  exact Cert.Lookup.Ref.ref_eq _ _ _ _ _ (Cert.Lookup.ids_nonneg _ _ _ _ _ (hpre c))

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
